-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  main_v3
-- ==== Pre_finite_inputs_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Kernel.lean ====
abbrev S512x1024 : Shape := ⟨2, ![512, 1024]⟩
abbrev S1024x512 : Shape := ⟨2, ![1024, 512]⟩
abbrev S512x512 : Shape := ⟨2, ![512, 512]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024x512, .bf16⟩
  | .local _ .vmem, ⟨0, _⟩ => ⟨S512x1024, .f32⟩
  | .local _ .vmem, ⟨1, _⟩ => ⟨S1024x512, .bf16⟩
  | .local _ .vmem, ⟨2, _⟩ => ⟨S512x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0 : Index := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c512_i32 : BitVec 32 := 512#32
  let v17 : BitVec 32 := Scalar.muli v9 c512_i32
  let v18 : Index := Scalar.indexCast v17
  ![0, v18.toNat]
def k0_off2 (d0 : Dev nD) : Fin 2 → Nat :=
  let c0_10 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_9 : BitVec 32 := 512#32
  let v25 : BitVec 32 := Scalar.muli v5 c512_i32_9
  let v26 : Index := Scalar.indexCast v25
  ![0, v26.toNat]
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_11 : BitVec 32 := 512#32
  let v30 : BitVec 32 := Scalar.muli v5 c512_i32_11
  let v31 : Index := Scalar.indexCast v30
  let c0_12 : Index := 0#32
  ![v31.toNat, 0]
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32_14 : BitVec 32 := 512#32
  let v33 : BitVec 32 := Scalar.muli v5 c512_i32_14
  let c0_i32_19 : BitVec 32 := 0#32
  ![v33.toNat, 0]
def k0_dev2 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v34 : BitVec 32 := Scalar.muli v2 c8_i32_15
  let v35 : BitVec 32 := Scalar.addi c0_i32_16 v34
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_17 : BitVec 32 := 4#32
  let v36 : BitVec 32 := Scalar.muli v9 c4_i32_17
  let v37 : BitVec 32 := Scalar.addi v35 v36
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v38 : BitVec 32 := Scalar.muli v8 c1_i32_18
  let v39 : BitVec 32 := Scalar.addi v37 v38
  v39.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S512x512 : 0 < S512x512.numel
  shapeCasts_S512x512_S512x512 : S512x512.ShapeCasts S512x512
  bitsLt_bf16_f32 : FTy.bits .bf16 < FTy.bits .f32
  inb_S512x512_S512x512_0_0 : ∀ a, (![0, 0] : Fin 2 → Nat) a + S512x512.size a ≤ S512x512.size a
  packedbf16_S512x512_S512x512_0_0 : (Rect.unit (s := S512x512) ![0, 0] S512x512.size inb_S512x512_S512x512_0_0).PackedRows (EltTy.packing .bf16)
  hcc0_scratch1 : 2 + S_.numel ≤ 4
  hcc0_scratch2 : 3 + S_.numel ≤ 4
  k0_dev1_lt : ∀ d0 : Dev nD, (k0_dev1 d0) < nD
  k0_off1_inb : ∀ d0 : Dev nD, ∀ a, (k0_off1 d0) a + S512x512.size a ≤ S512x1024.size a
  k0_off2_inb : ∀ d0 : Dev nD, ∀ a, (k0_off2 d0) a + S512x512.size a ≤ S512x1024.size a
  k0_off3_inb : ∀ d0 : Dev nD, ∀ a, (k0_off3 d0) a + S512x512.size a ≤ S1024x512.size a
  k0_off3_packedbf16 : ∀ d0 : Dev nD, (Rect.unit (s := S1024x512) (k0_off3 d0) S512x512.size (k0_off3_inb d0)).PackedRows (EltTy.packing .bf16)
  k0_off4_inb : ∀ d0 : Dev nD, ∀ a, (k0_off4 d0) a + S512x512.size a ≤ S1024x512.size a
  k0_off4_wordsbf16 : ∀ d0 : Dev nD, (Rect.unit (s := S1024x512) (k0_off4 d0) S512x512.size (k0_off4_inb d0)).WholeWords (EltTy.packing .bf16)
  k0_dev2_lt : ∀ d0 : Dev nD, (k0_dev2 d0) < nD
  hstage0_0 : ∀ j, (stage0_0 j).IsWhole
  hstage0_1 : ∀ j, (stage0_1 j).IsWhole

variable [Facts₀]

abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.ProtoKernel.lean ====
/-
  The exchange of column halves across the mesh axis `y`, part 1: the protocol.

  The sixteen devices pair off along `y`: device `c` at `(x, y, z)` works with `peer c` at `(x, 1 - y, z)`.
  Device `c` holds rows `[512 y, 512 y + 512)` of the 1024 x 1024 array, all 1024 columns, and must end
  holding columns `[512 y, 512 y + 512)`, all 1024 rows. It keeps the columns of its own half (they are rows
  `[512 y, 512 y + 512)` of its result) and sends the other column half to its peer, where they are rows
  `[512 y, 512 y + 512)` of the peer's result: the rows the peer does NOT write itself.

  Three semaphores per device. The barrier semaphore: the peer signals one unit on entry, and with that unit
  hands over the half of its result buffer the copy will land in. The send semaphore: the device's own copy
  credits it once the source has been read, returning the source. The receive semaphore: the peer's copy
  credits it once the rows have landed, returning those rows at the sender's values.
-/
import proofs.«900492_g7700000000000493_dist_a2a_v7x_xyz2x2x4_y_m512_n512_bf16_1_alg».proof.Proof.Gen.Kernel
import proofs.«900492_g7700000000000493_dist_a2a_v7x_xyz2x2x4_y_m512_n512_bf16_1_alg».proof.Proof.Gen.Kernel.Skeleton
import proofs.«900492_g7700000000000493_dist_a2a_v7x_xyz2x2x4_y_m512_n512_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's own (one duty a round, named `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def st0 : MemSt nD τ sig (Elt F) := ⟨m, fun _ => 0, ρ⟩

/-! ## The pairing along `y` -/

/-- The device with the other `y` coordinate: `c` is at `(c / 8, c / 4 % 2, c % 4)`. -/
def peer (c : Dev nD) : Dev nD :=
  ⟨(8 * (c.val / 8) + (c.val % 4) + 4) - 4 * ((c.val / 4) % 2), by have h : c.val < 16 := c.isLt; show _ < 16; omega⟩

theorem peer_peer (c : Dev nD) : peer (peer c) = c := by revert c; decide
/-- The peer's `y` coordinate is the other one. -/
theorem y_peer (c : Dev nD) : (peer c).val / 4 % 2 = 1 - c.val / 4 % 2 := by revert c; decide
theorem y_lt (c : Dev nD) : c.val / 4 % 2 < 2 := Nat.mod_lt _ (by decide)

/-- Both device chains of the body (the signal's and the copy's) name the peer. -/
theorem sig_dev (c : Dev nD) : (⟨k0_dev1 c, k0_dev1_lt c⟩ : Dev nD) = peer c := Fin.ext (k0_dev1_eq c)
theorem copy_dev (c : Dev nD) : (⟨k0_dev2 c, k0_dev2_lt c⟩ : Dev nD) = peer c := Fin.ext (k0_dev2_eq c)

def swap : Dev nD ≃ Dev nD := ⟨peer, peer, peer_peer, peer_peer⟩

/-! ## Memrefs, rectangles, cells -/

abbrev xM : Memref sig .tc .vmem S512x1024 .f32 := Memref.whole cc0_stg0_0
abbrev oM : Memref sig .tc .vmem S1024x512 .bf16 := Memref.whole cc0_stg1_0
abbrev bM : Memref sig .tc .vmem S512x512 .bf16 := Memref.whole cc0_scratch0

/-- The column half sent away, the column half kept (of the device's 512 x 1024 rows); -/
abbrev rSent (c : Dev nD) : Rect S512x1024 := Rect.unit (s := S512x1024) (k0_off1 c) S512x512.size (k0_off1_inb c)
abbrev rKept (c : Dev nD) : Rect S512x1024 := Rect.unit (s := S512x1024) (k0_off2 c) S512x512.size (k0_off2_inb c)
/-- the rows of the 1024 x 512 result the device writes itself, and the rows (of the PEER's result) its copy lands in. -/
abbrev rOwn (c : Dev nD) : Rect S1024x512 := Rect.unit (s := S1024x512) (k0_off3 c) S512x512.size (k0_off3_inb c)
abbrev rLand (c : Dev nD) : Rect S1024x512 := Rect.unit (s := S1024x512) (k0_off4 c) S512x512.size (k0_off4_inb c)
/-- The destination of device `c`'s copy: those rows, as a memref (read on the peer). -/
abbrev dM (c : Dev nD) : Memref sig .tc .vmem S512x512 .bf16 := (oM : Memref sig .tc .vmem S1024x512 .bf16).slice (rLand c) (fun _ => rfl)
/-- The whole scratch buffer, as the body's accesses spell it. -/
abbrev rAll : Rect S512x512 := Rect.unit (s := S512x512) ![0, 0] S512x512.size inb_S512x512_S512x512_0_0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The units a copy of a 512 x 512 block of bf16 credits: the same for every view of that shape. -/
abbrev N : ℕ := (bM : Memref sig .tc .vmem S512x512 .bf16).view.dmaCredit
theorem N_pos : 0 < N := View.dmaCredit_pos _ (by decide)

/-! ## The two row halves of the result buffer -/

/-- The result rows device `c` stores itself, and the rows the copy OF device `p` lands in (on `peer p`). -/
def RegOwn (c : Dev nD) := ((oM : Memref sig .tc .vmem S1024x512 .bf16).access (rOwn c) : View sig .tc _ _ _).set
def RegLand (p : Dev nD) := (dM p).view.set

theorem RegOwn_eq (c : Dev nD) : RegOwn c = (rOwn c).set := View.set_slice_whole _ _
theorem RegLand_eq (p : Dev nD) : RegLand p = (rLand p).set := View.set_slice_whole _ _

theorem off3_0 (c : Dev nD) : k0_off3 c 0 = 512 * (c.val / 4 % 2) := by rw [k0_off3_eq]; rfl
theorem off3_1 (c : Dev nD) : k0_off3 c 1 = 0 := by rw [k0_off3_eq]; rfl
theorem off4_0 (c : Dev nD) : k0_off4 c 0 = 512 * (c.val / 4 % 2) := by rw [k0_off4_eq]; rfl
theorem off4_1 (c : Dev nD) : k0_off4 c 1 = 0 := by rw [k0_off4_eq]; rfl

/-- An index is in a device's own rows iff its row is in `[512 y, 512 y + 512)`; -/
theorem mem_RegOwn (c : Dev nD) (i : S1024x512.Idx) :
    i ∈ RegOwn c ↔ 512 * (c.val / 4 % 2) ≤ (i 0 : ℕ) ∧ (i 0 : ℕ) < 512 * (c.val / 4 % 2) + 512 := by
  rw [RegOwn_eq, Rect.mem_set_unit]
  have h1 : (i 1 : ℕ) < 512 := (i 1).isLt
  constructor
  · intro h; have := h 0; rw [off3_0] at this; exact this
  · intro h
    refine Fin.forall_fin_two.mpr ⟨?_, ?_⟩
    · rw [off3_0]; exact h
    · rw [off3_1]; exact ⟨Nat.zero_le _, by show (i 1 : ℕ) < 0 + 512; omega⟩
/-- and in the landing rows of `p`'s copy iff its row is in `[512 y_p, 512 y_p + 512)`. -/
theorem mem_RegLand (p : Dev nD) (i : S1024x512.Idx) :
    i ∈ RegLand p ↔ 512 * (p.val / 4 % 2) ≤ (i 0 : ℕ) ∧ (i 0 : ℕ) < 512 * (p.val / 4 % 2) + 512 := by
  rw [RegLand_eq, Rect.mem_set_unit]
  have h1 : (i 1 : ℕ) < 512 := (i 1).isLt
  constructor
  · intro h; have := h 0; rw [off4_0] at this; exact this
  · intro h
    refine Fin.forall_fin_two.mpr ⟨?_, ?_⟩
    · rw [off4_0]; exact h
    · rw [off4_1]; exact ⟨Nat.zero_le _, by show (i 1 : ℕ) < 0 + 512; omega⟩

/-- On device `c` the rows its peer's copy lands in and the rows it writes itself are disjoint, -/
theorem regs_disjoint (c : Dev nD) : Disjoint (RegLand (peer c)) (RegOwn c) := by
  rw [Finset.disjoint_left]
  intro i hL hO
  rw [mem_RegLand, y_peer] at hL
  rw [mem_RegOwn] at hO
  have := y_lt c
  omega
/-- and together they are the whole buffer. -/
theorem regs_cover (c : Dev nD) : RegLand (peer c) ∪ RegOwn c = Finset.univ := by
  ext i
  simp only [Finset.mem_union, Finset.mem_univ, iff_true]
  rw [mem_RegLand, y_peer, mem_RegOwn]
  have h0 : (i 0 : ℕ) < 1024 := (i 0).isLt
  have := y_lt c
  omega

/-! ## Contents -/

/-- Device `c`'s 512 x 1024 rows of the array, as its input staging buffer holds them. -/
def xstg (c : Dev nD) : (cc0_stg0_0 : Ref sig .tc).ty.Contents (Elt F) :=
  (win0_0.blk (0 : Fin 1)).view.read (Elt F) (m ((c : Thread nD τ).loc main_arg0))

/-- What `c` sends: the column half of the OTHER `y`, narrowed to the result's format. -/
def sendVal (c : Dev nD) : (cc0_scratch0 : Ref sig .tc).ty.Contents (Elt F) :=
  k0_pay1 ((xM : Memref sig .tc .vmem S512x1024 .f32).view.readAt (Elt F) (rSent c).toLoadRect (xstg m c))
/-- What it keeps: the column half of its own `y`, narrowed. -/
def keepVal (c : Dev nD) : FVec F S512x512 .bf16 :=
  k0_pay2 ((xM : Memref sig .tc .vmem S512x1024 .f32).view.readAt (Elt F) (rKept c).toLoadRect (xstg m c))

/-- Contents that are never read: both row halves of the result are overwritten. -/
def base : (cc0_stg1_0 : Ref sig .tc).ty.Contents (Elt F) := fun _ => Classical.arbitrary _

/-- The result buffer with `c`'s own rows stored; -/
def localV (c : Dev nD) : (cc0_stg1_0 : Ref sig .tc).ty.Contents (Elt F) :=
  ((oM : Memref sig .tc .vmem S1024x512 .bf16).access (rOwn c) : View sig .tc _ _ _).write (Elt F) base (keepVal m c) Finset.univ
/-- the result buffer (of `peer p`) with the copy of sender `p` landed. -/
def landV (p : Dev nD) : (cc0_stg1_0 : Ref sig .tc).ty.Contents (Elt F) :=
  (dM p).view.write (Elt F) base ((bM : Memref sig .tc .vmem S512x512 .bf16).view.read (Elt F) (sendVal m p)) Finset.univ
/-- Device `c`'s result: its own rows where it stored them, its peer's where they landed. -/
def outAt (c : Dev nD) : (cc0_stg1_0 : Ref sig .tc).ty.Contents (Elt F) :=
  (RegOwn c).piecewise (localV m c) (landV m (peer c))

/-- The scratch (send) buffer of `c`, whole; -/
def bufPts (c : Dev nD) (f : (cc0_scratch0 : Ref sig .tc).ty.Contents (Elt F)) : sProp 𝕄 :=
  (bM : Memref sig .tc .vmem S512x512 .bf16).view.loc (c : Thread nD τ) ↦[(bM : Memref sig .tc .vmem S512x512 .bf16).view.set]{fullShare} f
/-- on device `c`, the result rows the copy of `p` lands in; -/
def rowsPts (p c : Dev nD) (f : (cc0_stg1_0 : Ref sig .tc).ty.Contents (Elt F)) : sProp 𝕄 :=
  (dM p).view.loc (c : Thread nD τ) ↦[(dM p).view.set]{fullShare} f
/-- on device `c`, the result rows it stores itself. -/
def ownPts (c : Dev nD) (f : (cc0_stg1_0 : Ref sig .tc).ty.Contents (Elt F)) : sProp 𝕄 :=
  (oM : Memref sig .tc .vmem S1024x512 .bf16).view.loc (c : Thread nD τ) ↦[RegOwn c]{fullShare} f

instance bufPts_storable (c : Dev nD) (f) : BI.Storable (upEmb : UEmb _ 𝕄) (bufPts (F := F) c f) := by unfold bufPts; infer_instance
instance rowsPts_storable (p c : Dev nD) (f) : BI.Storable (upEmb : UEmb _ 𝕄) (rowsPts (F := F) p c f) := by unfold rowsPts; infer_instance

theorem buf_set : (bM : Memref sig .tc .vmem S512x512 .bf16).view.set = Finset.univ := View.set_whole _
theorem bufPts_eq (c : Dev nD) (f : Buf (Elt F) ((c : Thread nD τ).loc cc0_scratch0)) :
    bufPts c f = (((c : Thread nD τ).loc cc0_scratch0) ↦{fullShare} f : sProp 𝕄) := by unfold bufPts; rw [buf_set]

/-- A landed copy does not depend on what it was laid over: on the landing rows the buffer is the sender's values. -/
theorem landed_eq (p c : Dev nD) (fd : (cc0_stg1_0 : Ref sig .tc).ty.Contents (Elt F)) :
    rowsPts p c ((dM p).view.write (Elt F) fd ((bM : Memref sig .tc .vmem S512x512 .bf16).view.read (Elt F) (sendVal m p)) Finset.univ)
      = rowsPts p c (landV m p) := by
  unfold rowsPts landV
  exact pointsTo_congr fun i hi => View.write_congr (fun _ _ _ => rfl) (fun h => absurd hi h)

/-! ## The schedule -/

/-- With its unit on `c`'s barrier cell the peer hands over the rows of ITS result that `c`'s copy lands in, and that it
    has reached round 0 of its receive cell; -/
def barPay (c : Dev nD) : sProp 𝕄 := iprop((∃ f, rowsPts c (peer c) f) ∗ reached ER (recvCell (peer c)) 0)
/-- the peer's copy, landed, hands `c` those rows of its own result at the peer's values; -/
def recvPay (c : Dev nD) : sProp 𝕄 := rowsPts (peer c) c (landV m (peer c))
/-- `c`'s own copy, read out, hands back its send buffer. -/
def sendPay (c : Dev nD) : sProp 𝕄 := bufPts c (sendVal m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty per cell: a barrier cell one unit (from the peer), a send or receive cell the block's credit. -/
def sched : Rounds.Schedule (GSem nD τ sig) Unit 𝕄 where
  duties g r := if r = 0 ∧ (IsBar g ∨ IsXfer g) then {()} else ∅
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

/-- The rest of each cell's round with no duty taken is its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its peer's receive cell the block's credit (its copy) and its peer's barrier cell one unit (its signal),
    summed so that the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (the staging cells, the send cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell (level 0) is below everything a device owes at launch, and fine when it owes nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device still owes its peer's receive credit: a receive cell, above its own barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.Kernel.Xchg

end
-- ==== Proof.BodyKernel.lean ====
/-
  The exchange of column halves across the mesh axis `y`, part 2: one device's body.

  On device `c`, from the result buffer held whole: the rows the peer's copy will land in are cut off and go to the peer
  with the barrier signal; the send buffer takes the other column half of the device's rows; the remaining rows of the
  result take the device's own column half; the barrier wait brings the peer's landing rows; the copy carries the send
  buffer there; the wait on the send cell returns the send buffer, the wait on the receive cell returns the device's
  landing rows holding the peer's send buffer; the two halves are joined again: the result buffer whole, at `outAt`.
-/
import proofs.«900492_g7700000000000493_dist_a2a_v7x_xyz2x2x4_y_m512_n512_bf16_1_alg».proof.Proof.ProtoKernel

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names the launch allocated them at: its own three, and its
    peer's barrier cell (its signal) and receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The exchange's ghost state device `c` starts from: the invariants; its positions at round 0 of its three cells; round 0
    reached on the cells it pays and on its own send and receive cells; the three tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, bufPts c f)
/-- After the point: the send buffer back, the two OWN cells at zero, closed. -/
def Φ₁ (c : Dev nD) : sProp 𝕄 := iprop(bufPts c (sendVal m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The result buffer, cut along the two row halves and joined again -/

/-- The whole result buffer of `c` is the rows its peer's copy lands in and the rows it stores itself, -/
theorem out_split (c : Dev nD) (f : (cc0_stg1_0 : Ref sig .tc).ty.Contents (Elt F)) :
    (((c : Thread nD τ).loc cc0_stg1_0) ↦{fullShare} f : sProp 𝕄) ⊢ iprop(rowsPts (peer c) c f ∗ ownPts c f) := by
  unfold rowsPts ownPts
  have h := (pointsTo_union (Val := Elt F) (Ix := Unit) (Name := ℕ) (U := UU) (Lvl := ℕ) (ℓ := (c : Thread nD τ).loc cc0_stg1_0)
    (q := fullShare) (f := f) (regs_disjoint c)).1
  rw [regs_cover] at h
  exact h

/-- and the two, at the landed values and the stored values, are the whole at `outAt`. -/
theorem out_join (c : Dev nD) :
    iprop(rowsPts (peer c) c (landV m (peer c)) ∗ ownPts c (localV m c)) ⊢ (((c : Thread nD τ).loc cc0_stg1_0) ↦{fullShare} outAt m c : sProp 𝕄) := by
  unfold rowsPts ownPts
  have h := pointsTo_join (Val := Elt F) (Ix := Unit) (Name := ℕ) (U := UU) (Lvl := ℕ) (ℓ := (c : Thread nD τ).loc cc0_stg1_0)
    (q := fullShare) (f := landV m (peer c)) (g := localV m c) (regs_disjoint c)
  rw [regs_cover] at h
  exact h

/-- What a store of the kept half over any contents leaves on the device's own rows. -/
theorem own_stored (c : Dev nD) (g : (cc0_stg1_0 : Ref sig .tc).ty.Contents (Elt F)) :
    ((((oM : Memref sig .tc .vmem S1024x512 .bf16).access (rOwn c) : View sig .tc _ _ _).loc (c : Thread nD τ)) ↦[RegOwn c]{fullShare}
        (((oM : Memref sig .tc .vmem S1024x512 .bf16).access (rOwn c) : View sig .tc _ _ _).write (Elt F) g
          (k0_pay2 ((xM : Memref sig .tc .vmem S512x1024 .f32).view.readAt (Elt F) (rKept c).toLoadRect (xstg m c))) Finset.univ) : sProp 𝕄)
      = ownPts c (localV m c) := by
  unfold ownPts localV keepVal
  exact pointsTo_congr fun i hi => View.write_congr (fun _ _ _ => rfl) (fun h => absurd hi h)

/-- The input staging buffer held whole, spelt through its memref's view. -/
theorem x_view (c : Dev nD) (f : (cc0_stg0_0 : Ref sig .tc).ty.Contents (Elt F)) :
    (((c : Thread nD τ).loc cc0_stg0_0) ↦{fullShare} f : sProp 𝕄)
      = ((xM : Memref sig .tc .vmem S512x1024 .f32).view.loc (c : Thread nD τ) ↦[(xM : Memref sig .tc .vmem S512x1024 .f32).view.set]{fullShare} f) := by
  rw [View.set_whole]

/-! ## The body -/

section Body

variable (K : Dev nD × Fin 3 → ℕ)

theorem hz : (![0, 0] : Fin 2 → Nat) = fun _ => 0 := funext fun a => by fin_cases a <;> rfl
/-- The send buffer stored whole holds what was stored. -/
theorem write_buf (f w : (cc0_scratch0 : Ref sig .tc).ty.Contents (Elt F)) :
    ((bM : Memref sig .tc .vmem S512x512 .bf16).access rAll : View sig .tc _ _ _).write (Elt F) f w Finset.univ = w :=
  Memref.write_access_unit_zero_univ (Elt F) cc0_scratch0 hz _ f w

/-- The copy of `c`'s send buffer into the landing rows on `n = peer c` (substituted, not rewritten): it pays `c`'s send
    cell with the send buffer and the peer's receive cell with the rows at the sent values. -/
theorem wp_send_peer (c n : Dev nD) (hn : n = peer c)
    {hsc : (dM c : Memref sig (Dev.tc n : Thread nD τ).2.kind .vmem S512x512 .bf16).view.ref.isScScratch = false}
    {hsrc : (bM : Memref sig .tc .vmem S512x512 .bf16).view.WordExact} {hdst : (dM c).view.WordExact}
    {hsem : DmaTarget.Typed .vmem (.dma recvS.sem) (.remote (Dev.tc n : Thread nD τ) (dM c) (.dma sendS.sem) hsc)}
    {α : Type} {Q : α → sProp 𝕄} {k : PUnit → Prog (TpuEff nD τ sig (Elt F) Λ₀ .tc) α}
    (fd : (cc0_stg1_0 : Ref sig .tc).ty.Contents (Elt F)) (W : Waits sig Unit) :
    iprop(cellInv ER (sched m) (K (c, 1)) (sendCell c) ∗ cellInv ER (sched m) (K (peer c, 2)) (recvCell (peer c))
        ∗ bufPts c (sendVal m c) ∗ rowsPts c (peer c) fd
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) (dM c) (.dma sendS.sem) hsc) (.dma recvS.sem) hsrc hdst hsem) k) Q) := by
  subst hn
  unfold bufPts rowsPts
  exact Rounds.wp_send_pointsTo 𝒱₀ ER (sched m) (c : Thread nD τ) none (κ₁ := K (c, 1)) (κ₂ := K (peer c, 2))
    (c' := (peer c : Thread nD τ)) (src := (bM : Memref sig .tc .vmem S512x512 .bf16)) (dst := dM c) (q := fullShare) (fs := sendVal m c)
    (r₁ := 0) (r₂ := 0) (d₁ := ()) (d₂ := ()) (fd := fd)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by rw [payload_recv]; unfold recvPay; rw [peer_peer]; exact Entails.of_eq (landed_eq m c (peer c) fd))

/-- The send buffer after the one store through its whole rectangle holds the sent half. -/
theorem buf_sent (c : Dev nD) (f : (cc0_scratch0 : Ref sig .tc).ty.Contents (Elt F)) :
    ((bM : Memref sig .tc .vmem S512x512 .bf16).view.loc (c : Thread nD τ) ↦[(bM : Memref sig .tc .vmem S512x512 .bf16).view.set]{fullShare}
        (bM : Memref sig .tc .vmem S512x512 .bf16).view.writes (Elt F) f
          [⟨rAll, k0_pay1 ((xM : Memref sig .tc .vmem S512x1024 .f32).view.readAt (Elt F) (rSent c).toLoadRect (xstg m c))⟩] : sProp 𝕄)
      = bufPts c (sendVal m c) := by
  unfold bufPts sendVal
  rw [View.writes_singleton]
  exact congrArg _ (write_buf f _)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, bufPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 1600000 in
/-- One device's body, stepped from `bodyPre` in program order to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hbuf⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [sig_dev c]
  -- the result buffer cut in two: the rows the peer's copy lands in, the rows stored here
  ihave Hcut := (out_split c g1) $$ Hout
  icases Hcut with ⟨Hgive, Hown⟩
  -- the SIGNAL to the peer's barrier cell: with it go the landing rows and that round 0 of the receive cell is reached
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (O₁ c) rfl)
    $$ [HO HtBP Hgive]
  · isplitr; · iexact HIbarP
    isplitl [HO]; · iexact HO
    isplitl [HtBP]; · iexact HtBP
    isplitl [Hgive]
    · rw [payload_bar]; unfold barPay; rw [peer_peer]
      isplitl [Hgive]; · iexists g1; iexact Hgive
      iexact HrV
    · iexact HrBP
  iintro HO
  -- the SEND BUFFER takes the other column half of the device's rows; the kept half is read: the accesses to buffers held whole
  unfold bufPts ownPts
  ihave Hx := (Entails.of_eq (x_view c (xstg m c))) $$ Hx
  sl_exec
  ihave Hbuf := (Entails.of_eq (buf_sent m c f0)) $$ Hbuf
  -- the device's OWN ROWS of the result take its own column half: the result buffer is held on those rows only
  iapply (wp_load_rect 𝒱₀ (c : Thread nD τ) none Set.univ (m := oM) (r := rOwn c) (Finset.Subset.refl (RegOwn c))) $$ Hown; iintro Hown
  iapply (wp_store 𝒱₀ (c : Thread nD τ) none Set.univ (m := oM) (r := rOwn c) (Mk := Finset.univ) (Finset.Subset.refl (RegOwn c))) $$ Hown; iintro Hown
  ihave Hown := (Entails.of_eq (own_stored m c g1)) $$ Hown
  -- the WAIT on its own barrier cell, still owing the peer's receive credit: the peer's landing rows come with it
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, Hland⟩, #HrVP'⟩
  -- the COPY of the send buffer into those rows
  unfold O₁
  iapply (wp_send_peer m K c _ (copy_dev c) fn (insert (SemLoc.reg barS, ()) W)) $$ [Hbuf Hland HO HtS HtVP]
  · isplitr; · iexact HIsnd
    isplitr; · iexact HIrcvP
    isplitl [Hbuf]; · iexact Hbuf
    isplitl [Hland]; · iexact Hland
    isplitl [HO]; · iexact HO
    isplitl [HtS]; · iexact HtS
    isplitr; · iexact HrS
    isplitl [HtVP]; · iexact HtVP
    iexact HrVP
  iintro ⟨HcS, HO⟩
  -- the wait on its SEND cell: the send buffer back
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      ((Nat.zero_add _).trans (expect_send m c).symm)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hbuf := (Entails.of_eq (rest_send m c)) $$ Hpay
  -- the wait on its RECEIVE cell: its landing rows, holding the peer's send buffer
  ihave HcV := (Entails.of_eq (show (cred (tallyAt (recvCell c) () N) : sProp 𝕄) = cred (tallyAt (recvCell c) () (dM c).view.dmaCredit) from rfl)) $$ HcV
  iapply (Rounds.wp_wait_rest_token 𝒱₀ ER (sched m) (c : Thread nD τ) none (κ := K (c, 2)) (k' := (dM c).view.dmaCredit)
      (wpE_waitDma2_eq 𝒱₀ (c : Thread nD τ) none Set.univ (dst := dM c)) (Set.mem_univ _) () (O := 0)
      (W := insert (SemLoc.dma sendS.sem, ()) (insert (SemLoc.reg barS, ()) W)) (R := 0) (m := 0) (T := ∅)
      ((Nat.zero_add _).trans ((show (dM c).view.dmaCredit = N from rfl).trans (expect_recv m c).symm))) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hrows := (Entails.of_eq (rest_recv m c)) $$ Hpay
  unfold recvPay sendPay
  -- the two own cells close: their counters at zero are the core's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  rw [wp_ret]; imodintro
  iapply Hk
  unfold bodyPost Φ₁ Dat.owesAt Pipeline.owesWithin
  rw [show (dats m 0 c).owed t₀.succ = 0 from rfl]
  isplitl [Hbuf HzS HzV]
  · isplitl [Hbuf]; · iexact Hbuf
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iapply (Entails.of_eq (x_view c (xstg m c)).symm); iexact Hx
  iexists _; isplitr; · (ipureintro; rfl)
  -- the two row halves joined: the result buffer whole
  iapply (out_join m c)
  isplitl [Hrows]; · iexact Hrows
  iexact Hown

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
set_option maxHeartbeats 1600000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hbuf⟩, Ho, Hx, Hout⟩
  iapply (sound_body m K c fun _ => bodyPost m c)
  unfold bodyPre
  isplitr []
  · isplitl [Hg Hrest Hbuf]
    · isplitl [Hg]; · iexact Hg
      icases Hrest with ⟨H1, H2, H3⟩
      isplitl [H1]; · iexact H1
      isplitl [H2]; · iexact H2
      isplitl [H3]; · iexact H3
      iexact Hbuf
    isplitl [Ho]; · iexact Ho
    isplitl [Hx] <;> iassumption
  · iintro H; iexact H

/-- info: 'Cert.Kernel.Xchg.body_obligation' depends on axioms: [propext, Classical.choice, Quot.sound] -/
#guard_msgs in #print axioms body_obligation

end Cert.Kernel.Xchg

end
-- ==== Proof.RunKernel.lean ====
/-
  The exchange of column halves across the mesh axis `y`, part 3: all sixteen devices at once.

  Each device's three cells are allocated under one update for the whole mesh, because a barrier cell and a receive
  cell are paid by the OTHER device of the pair: the tokens a device pays with are its peer's cells' tokens, dealt
  across the pairing. What each device owes at launch (one unit to its peer's barrier cell, a block's credit to its
  peer's receive cell) is, summed over the payers, what each cell is credited: one unit, one block. Levels: a device
  waits on its barrier cell (level 1) while it owes only a receive cell (level 2), and on the staging cells (level 0)
  while it owes both: no cycle. The run ends with every windowed array at what the proof data compute for it.
-/
import proofs.«900492_g7700000000000493_dist_a2a_v7x_xyz2x2x4_y_m512_n512_bf16_1_alg».proof.Proof.BodyKernel

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state dealt at launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`; -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)
/-- what the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across the pairing: a barrier cell's and a receive cell's token go to the peer, who pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s peer; -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]
/-- its receive cell: a block's credit if it is `c`'s peer. -/
theorem owed_recv (d c : Dev nD) : O₀ d (recvCell c) () = if d = peer c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [bufPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (sendVal m c); rw [← bufPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Each windowed array after the run, as the proof data compute it. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly
    fair execution of @main terminates, faulting nowhere, and every final state has each device's argument and result
    arrays at the contents the proof data compute. -/
theorem run_main : θ_run defs (onTc (τ := τ) (main (F := F))) (st0 m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Xchg.run_main' depends on axioms: [propext, Classical.choice, Quot.sound] -/
#guard_msgs in #print axioms run_main

/-- The argument array after the run holds what it held; -/
theorem finalA_x (c : Dev nD) : finalA m c (0 : Fin 2) = m (win0_0.arr.view.loc (c : Thread nD τ)) :=
  (dats (F := F) m 0 c).arrAt_in (0 : Fin 2) rfl _

end Cert.Kernel.Xchg

end
-- ==== Proof.ProtoKernelIdeal.lean ====
/-
  The exchange of column halves across the mesh axis `y`, part 1: the protocol.

  The sixteen devices pair off along `y`: device `c` at `(x, y, z)` works with `peer c` at `(x, 1 - y, z)`.
  Device `c` holds rows `[512 y, 512 y + 512)` of the 1024 x 1024 array, all 1024 columns, and must end
  holding columns `[512 y, 512 y + 512)`, all 1024 rows. It keeps the columns of its own half (they are rows
  `[512 y, 512 y + 512)` of its result) and sends the other column half to its peer, where they are rows
  `[512 y, 512 y + 512)` of the peer's result: the rows the peer does NOT write itself.

  Three semaphores per device. The barrier semaphore: the peer signals one unit on entry, and with that unit
  hands over the half of its result buffer the copy will land in. The send semaphore: the device's own copy
  credits it once the source has been read, returning the source. The receive semaphore: the peer's copy
  credits it once the rows have landed, returning those rows at the sender's values.
-/
import proofs.«900492_g7700000000000493_dist_a2a_v7x_xyz2x2x4_y_m512_n512_bf16_1_alg».proof.Proof.Gen.KernelIdeal
import proofs.«900492_g7700000000000493_dist_a2a_v7x_xyz2x2x4_y_m512_n512_bf16_1_alg».proof.Proof.Gen.KernelIdeal.Skeleton
import proofs.«900492_g7700000000000493_dist_a2a_v7x_xyz2x2x4_y_m512_n512_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's own (one duty a round, named `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero. -/
def st0 : MemSt nD τ sig (Elt F) := ⟨m, fun _ => 0, ρ⟩

/-! ## The pairing along `y` -/

/-- The device with the other `y` coordinate: `c` is at `(c / 8, c / 4 % 2, c % 4)`. -/
def peer (c : Dev nD) : Dev nD :=
  ⟨(8 * (c.val / 8) + (c.val % 4) + 4) - 4 * ((c.val / 4) % 2), by have h : c.val < 16 := c.isLt; show _ < 16; omega⟩

theorem peer_peer (c : Dev nD) : peer (peer c) = c := by revert c; decide
/-- The peer's `y` coordinate is the other one. -/
theorem y_peer (c : Dev nD) : (peer c).val / 4 % 2 = 1 - c.val / 4 % 2 := by revert c; decide
theorem y_lt (c : Dev nD) : c.val / 4 % 2 < 2 := Nat.mod_lt _ (by decide)

/-- Both device chains of the body (the signal's and the copy's) name the peer. -/
theorem sig_dev (c : Dev nD) : (⟨k0_dev1 c, k0_dev1_lt c⟩ : Dev nD) = peer c := Fin.ext (k0_dev1_eq c)
theorem copy_dev (c : Dev nD) : (⟨k0_dev2 c, k0_dev2_lt c⟩ : Dev nD) = peer c := Fin.ext (k0_dev2_eq c)

def swap : Dev nD ≃ Dev nD := ⟨peer, peer, peer_peer, peer_peer⟩

/-! ## Memrefs, rectangles, cells -/

abbrev xM : Memref sig .tc .vmem S512x1024 .f32 := Memref.whole cc0_stg0_0
abbrev oM : Memref sig .tc .vmem S1024x512 .bf16 := Memref.whole cc0_stg1_0
abbrev bM : Memref sig .tc .vmem S512x512 .bf16 := Memref.whole cc0_scratch0

/-- The column half sent away, the column half kept (of the device's 512 x 1024 rows); -/
abbrev rSent (c : Dev nD) : Rect S512x1024 := Rect.unit (s := S512x1024) (k0_off1 c) S512x512.size (k0_off1_inb c)
abbrev rKept (c : Dev nD) : Rect S512x1024 := Rect.unit (s := S512x1024) (k0_off2 c) S512x512.size (k0_off2_inb c)
/-- the rows of the 1024 x 512 result the device writes itself, and the rows (of the PEER's result) its copy lands in. -/
abbrev rOwn (c : Dev nD) : Rect S1024x512 := Rect.unit (s := S1024x512) (k0_off3 c) S512x512.size (k0_off3_inb c)
abbrev rLand (c : Dev nD) : Rect S1024x512 := Rect.unit (s := S1024x512) (k0_off4 c) S512x512.size (k0_off4_inb c)
/-- The destination of device `c`'s copy: those rows, as a memref (read on the peer). -/
abbrev dM (c : Dev nD) : Memref sig .tc .vmem S512x512 .bf16 := (oM : Memref sig .tc .vmem S1024x512 .bf16).slice (rLand c) (fun _ => rfl)
/-- The whole scratch buffer, as the body's accesses spell it. -/
abbrev rAll : Rect S512x512 := Rect.unit (s := S512x512) ![0, 0] S512x512.size inb_S512x512_S512x512_0_0

abbrev barS : Sem sig := (SemArray.scalar (sig.barrier 0 rfl) : Sems sig S_).sem
abbrev sendS : DmaSems sig S_ := cc0_scratch1
abbrev recvS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

abbrev osem : Fin 2 → SemLoc sig := fun | 0 => .dma sendS.sem | 1 => .dma recvS.sem
abbrev csem : Fin 3 → SemLoc sig := fun | 0 => .reg barS | 1 => .dma sendS.sem | 2 => .dma recvS.sem
abbrev kcell (ck : Dev nD × Fin 3) : GSem nD τ sig := ((ck.1 : Thread nD τ), csem ck.2)

/-- The units a copy of a 512 x 512 block of bf16 credits: the same for every view of that shape. -/
abbrev N : ℕ := (bM : Memref sig .tc .vmem S512x512 .bf16).view.dmaCredit
theorem N_pos : 0 < N := View.dmaCredit_pos _ (by decide)

/-! ## The two row halves of the result buffer -/

/-- The result rows device `c` stores itself, and the rows the copy OF device `p` lands in (on `peer p`). -/
def RegOwn (c : Dev nD) := ((oM : Memref sig .tc .vmem S1024x512 .bf16).access (rOwn c) : View sig .tc _ _ _).set
def RegLand (p : Dev nD) := (dM p).view.set

theorem RegOwn_eq (c : Dev nD) : RegOwn c = (rOwn c).set := View.set_slice_whole _ _
theorem RegLand_eq (p : Dev nD) : RegLand p = (rLand p).set := View.set_slice_whole _ _

theorem off3_0 (c : Dev nD) : k0_off3 c 0 = 512 * (c.val / 4 % 2) := by rw [k0_off3_eq]; rfl
theorem off3_1 (c : Dev nD) : k0_off3 c 1 = 0 := by rw [k0_off3_eq]; rfl
theorem off4_0 (c : Dev nD) : k0_off4 c 0 = 512 * (c.val / 4 % 2) := by rw [k0_off4_eq]; rfl
theorem off4_1 (c : Dev nD) : k0_off4 c 1 = 0 := by rw [k0_off4_eq]; rfl

/-- An index is in a device's own rows iff its row is in `[512 y, 512 y + 512)`; -/
theorem mem_RegOwn (c : Dev nD) (i : S1024x512.Idx) :
    i ∈ RegOwn c ↔ 512 * (c.val / 4 % 2) ≤ (i 0 : ℕ) ∧ (i 0 : ℕ) < 512 * (c.val / 4 % 2) + 512 := by
  rw [RegOwn_eq, Rect.mem_set_unit]
  have h1 : (i 1 : ℕ) < 512 := (i 1).isLt
  constructor
  · intro h; have := h 0; rw [off3_0] at this; exact this
  · intro h
    refine Fin.forall_fin_two.mpr ⟨?_, ?_⟩
    · rw [off3_0]; exact h
    · rw [off3_1]; exact ⟨Nat.zero_le _, by show (i 1 : ℕ) < 0 + 512; omega⟩
/-- and in the landing rows of `p`'s copy iff its row is in `[512 y_p, 512 y_p + 512)`. -/
theorem mem_RegLand (p : Dev nD) (i : S1024x512.Idx) :
    i ∈ RegLand p ↔ 512 * (p.val / 4 % 2) ≤ (i 0 : ℕ) ∧ (i 0 : ℕ) < 512 * (p.val / 4 % 2) + 512 := by
  rw [RegLand_eq, Rect.mem_set_unit]
  have h1 : (i 1 : ℕ) < 512 := (i 1).isLt
  constructor
  · intro h; have := h 0; rw [off4_0] at this; exact this
  · intro h
    refine Fin.forall_fin_two.mpr ⟨?_, ?_⟩
    · rw [off4_0]; exact h
    · rw [off4_1]; exact ⟨Nat.zero_le _, by show (i 1 : ℕ) < 0 + 512; omega⟩

/-- On device `c` the rows its peer's copy lands in and the rows it writes itself are disjoint, -/
theorem regs_disjoint (c : Dev nD) : Disjoint (RegLand (peer c)) (RegOwn c) := by
  rw [Finset.disjoint_left]
  intro i hL hO
  rw [mem_RegLand, y_peer] at hL
  rw [mem_RegOwn] at hO
  have := y_lt c
  omega
/-- and together they are the whole buffer. -/
theorem regs_cover (c : Dev nD) : RegLand (peer c) ∪ RegOwn c = Finset.univ := by
  ext i
  simp only [Finset.mem_union, Finset.mem_univ, iff_true]
  rw [mem_RegLand, y_peer, mem_RegOwn]
  have h0 : (i 0 : ℕ) < 1024 := (i 0).isLt
  have := y_lt c
  omega

/-! ## Contents -/

/-- Device `c`'s 512 x 1024 rows of the array, as its input staging buffer holds them. -/
def xstg (c : Dev nD) : (cc0_stg0_0 : Ref sig .tc).ty.Contents (Elt F) :=
  (win0_0.blk (0 : Fin 1)).view.read (Elt F) (m ((c : Thread nD τ).loc main_arg0))

/-- What `c` sends: the column half of the OTHER `y`, narrowed to the result's format. -/
def sendVal (c : Dev nD) : (cc0_scratch0 : Ref sig .tc).ty.Contents (Elt F) :=
  k0_pay1 ((xM : Memref sig .tc .vmem S512x1024 .f32).view.readAt (Elt F) (rSent c).toLoadRect (xstg m c))
/-- What it keeps: the column half of its own `y`, narrowed. -/
def keepVal (c : Dev nD) : FVec F S512x512 .bf16 :=
  k0_pay2 ((xM : Memref sig .tc .vmem S512x1024 .f32).view.readAt (Elt F) (rKept c).toLoadRect (xstg m c))

/-- Contents that are never read: both row halves of the result are overwritten. -/
def base : (cc0_stg1_0 : Ref sig .tc).ty.Contents (Elt F) := fun _ => Classical.arbitrary _

/-- The result buffer with `c`'s own rows stored; -/
def localV (c : Dev nD) : (cc0_stg1_0 : Ref sig .tc).ty.Contents (Elt F) :=
  ((oM : Memref sig .tc .vmem S1024x512 .bf16).access (rOwn c) : View sig .tc _ _ _).write (Elt F) base (keepVal m c) Finset.univ
/-- the result buffer (of `peer p`) with the copy of sender `p` landed. -/
def landV (p : Dev nD) : (cc0_stg1_0 : Ref sig .tc).ty.Contents (Elt F) :=
  (dM p).view.write (Elt F) base ((bM : Memref sig .tc .vmem S512x512 .bf16).view.read (Elt F) (sendVal m p)) Finset.univ
/-- Device `c`'s result: its own rows where it stored them, its peer's where they landed. -/
def outAt (c : Dev nD) : (cc0_stg1_0 : Ref sig .tc).ty.Contents (Elt F) :=
  (RegOwn c).piecewise (localV m c) (landV m (peer c))

/-- The scratch (send) buffer of `c`, whole; -/
def bufPts (c : Dev nD) (f : (cc0_scratch0 : Ref sig .tc).ty.Contents (Elt F)) : sProp 𝕄 :=
  (bM : Memref sig .tc .vmem S512x512 .bf16).view.loc (c : Thread nD τ) ↦[(bM : Memref sig .tc .vmem S512x512 .bf16).view.set]{fullShare} f
/-- on device `c`, the result rows the copy of `p` lands in; -/
def rowsPts (p c : Dev nD) (f : (cc0_stg1_0 : Ref sig .tc).ty.Contents (Elt F)) : sProp 𝕄 :=
  (dM p).view.loc (c : Thread nD τ) ↦[(dM p).view.set]{fullShare} f
/-- on device `c`, the result rows it stores itself. -/
def ownPts (c : Dev nD) (f : (cc0_stg1_0 : Ref sig .tc).ty.Contents (Elt F)) : sProp 𝕄 :=
  (oM : Memref sig .tc .vmem S1024x512 .bf16).view.loc (c : Thread nD τ) ↦[RegOwn c]{fullShare} f

instance bufPts_storable (c : Dev nD) (f) : BI.Storable (upEmb : UEmb _ 𝕄) (bufPts (F := F) c f) := by unfold bufPts; infer_instance
instance rowsPts_storable (p c : Dev nD) (f) : BI.Storable (upEmb : UEmb _ 𝕄) (rowsPts (F := F) p c f) := by unfold rowsPts; infer_instance

theorem buf_set : (bM : Memref sig .tc .vmem S512x512 .bf16).view.set = Finset.univ := View.set_whole _
theorem bufPts_eq (c : Dev nD) (f : Buf (Elt F) ((c : Thread nD τ).loc cc0_scratch0)) :
    bufPts c f = (((c : Thread nD τ).loc cc0_scratch0) ↦{fullShare} f : sProp 𝕄) := by unfold bufPts; rw [buf_set]

/-- A landed copy does not depend on what it was laid over: on the landing rows the buffer is the sender's values. -/
theorem landed_eq (p c : Dev nD) (fd : (cc0_stg1_0 : Ref sig .tc).ty.Contents (Elt F)) :
    rowsPts p c ((dM p).view.write (Elt F) fd ((bM : Memref sig .tc .vmem S512x512 .bf16).view.read (Elt F) (sendVal m p)) Finset.univ)
      = rowsPts p c (landV m p) := by
  unfold rowsPts landV
  exact pointsTo_congr fun i hi => View.write_congr (fun _ _ _ => rfl) (fun h => absurd hi h)

/-! ## The schedule -/

/-- With its unit on `c`'s barrier cell the peer hands over the rows of ITS result that `c`'s copy lands in, and that it
    has reached round 0 of its receive cell; -/
def barPay (c : Dev nD) : sProp 𝕄 := iprop((∃ f, rowsPts c (peer c) f) ∗ reached ER (recvCell (peer c)) 0)
/-- the peer's copy, landed, hands `c` those rows of its own result at the peer's values; -/
def recvPay (c : Dev nD) : sProp 𝕄 := rowsPts (peer c) c (landV m (peer c))
/-- `c`'s own copy, read out, hands back its send buffer. -/
def sendPay (c : Dev nD) : sProp 𝕄 := bufPts c (sendVal m c)

abbrev IsBar (g : GSem nD τ sig) : Prop := g.1.2 = .tc ∧ g.2 = .reg barS
abbrev IsXfer (g : GSem nD τ sig) : Prop := g.1.2 = .tc ∧ (g.2 = .dma sendS.sem ∨ g.2 = .dma recvS.sem)

/-- One round, round 0, one duty per cell: a barrier cell one unit (from the peer), a send or receive cell the block's credit. -/
def sched : Rounds.Schedule (GSem nD τ sig) Unit 𝕄 where
  duties g r := if r = 0 ∧ (IsBar g ∨ IsXfer g) then {()} else ∅
  amount g _ _ := if g.2 = .reg barS then 1 else N
  payload g _ _ :=
    if g.2 = .reg barS then barPay g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (sched (F := F) m).duties (barCell c) 0 = {()} := by dsimp only [sched]; exact if_pos ⟨rfl, .inl ⟨rfl, rfl⟩⟩
theorem duties_send : (sched (F := F) m).duties (sendCell c) 0 = {()} := by dsimp only [sched]; exact if_pos ⟨rfl, .inr ⟨rfl, .inl rfl⟩⟩
theorem duties_recv : (sched (F := F) m).duties (recvCell c) 0 = {()} := by dsimp only [sched]; exact if_pos ⟨rfl, .inr ⟨rfl, .inr rfl⟩⟩
theorem duties_later (g : GSem nD τ sig) : ∀ r, 1 ≤ r → (sched (F := F) m).duties g r = ∅ :=
  fun r hr => by dsimp only [sched]; rw [if_neg fun h => by omega]

theorem amount_bar (d : Unit) : (sched (F := F) m).amount (barCell c) 0 d = 1 := by dsimp only [sched]; exact if_pos rfl
theorem amount_send (d : Unit) : (sched (F := F) m).amount (sendCell c) 0 d = N := by dsimp only [sched]; exact if_neg send_ne_bar
theorem amount_recv (d : Unit) : (sched (F := F) m).amount (recvCell c) 0 d = N := by dsimp only [sched]; exact if_neg recv_ne_bar

theorem expect_bar : (sched (F := F) m).expect (barCell c) 0 = 1 := by
  unfold Schedule.expect Schedule.amountOf; rw [duties_bar, Finset.sum_singleton, amount_bar]
theorem expect_send : (sched (F := F) m).expect (sendCell c) 0 = N := by
  unfold Schedule.expect Schedule.amountOf; rw [duties_send, Finset.sum_singleton, amount_send]
theorem expect_recv : (sched (F := F) m).expect (recvCell c) 0 = N := by
  unfold Schedule.expect Schedule.amountOf; rw [duties_recv, Finset.sum_singleton, amount_recv]

theorem payload_bar (d : Unit) : (sched (F := F) m).payload (barCell c) 0 d = barPay c := by dsimp only [sched]; rw [if_pos rfl]
theorem payload_send (d : Unit) : (sched (F := F) m).payload (sendCell c) 0 d = sendPay m c := by
  dsimp only [sched]; rw [if_neg send_ne_bar, if_neg send_ne_recv, if_pos rfl]
theorem payload_recv (d : Unit) : (sched (F := F) m).payload (recvCell c) 0 d = recvPay m c := by
  dsimp only [sched]; rw [if_neg recv_ne_bar, if_pos rfl]

/-- The rest of each cell's round with no duty taken is its one payload. -/
theorem rest_bar : bigSep ((sched (F := F) m).duties (barCell c) 0 \ ∅) (fun d => (sched (F := F) m).payload (barCell c) 0 d) = barPay c := by
  rw [Finset.sdiff_empty, duties_bar, bigSep_singleton, payload_bar]
theorem rest_send : bigSep ((sched (F := F) m).duties (sendCell c) 0 \ ∅) (fun d => (sched (F := F) m).payload (sendCell c) 0 d) = sendPay m c := by
  rw [Finset.sdiff_empty, duties_send, bigSep_singleton, payload_send]
theorem rest_recv : bigSep ((sched (F := F) m).duties (recvCell c) 0 \ ∅) (fun d => (sched (F := F) m).payload (recvCell c) 0 d) = recvPay m c := by
  rw [Finset.sdiff_empty, duties_recv, bigSep_singleton, payload_recv]

end Sched

/-! ## What each device owes at launch; the levels -/

/-- Device `c` owes its peer's receive cell the block's credit (its copy) and its peer's barrier cell one unit (its signal),
    summed so that the signal, which comes first, peels the last summand. -/
def O₁ (c : Dev nD) : CellTallies nD τ sig Unit := tallyAt (recvCell (peer c)) () N
def O₀ (c : Dev nD) : CellTallies nD τ sig Unit := O₁ c + tallyAt (barCell (peer c)) () 1

def L (g : GSem nD τ sig) : Finset Unit := if g.1.2 = .tc then {()} else ∅
/-- Barrier cells at 1, receive cells at 2, everything else (the staging cells, the send cells) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (peer c) ∨ g = barCell (peer c) := by
  unfold O₀ O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

/-- A wait on a staging cell (level 0) is below everything a device owes at launch, and fine when it owes nothing. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

/-- At its barrier wait a device still owes its peer's receive credit: a receive cell, above its own barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

end Cert.KernelIdeal.Xchg

end
-- ==== Proof.BodyKernelIdeal.lean ====
/-
  The exchange of column halves across the mesh axis `y`, part 2: one device's body.

  On device `c`, from the result buffer held whole: the rows the peer's copy will land in are cut off and go to the peer
  with the barrier signal; the send buffer takes the other column half of the device's rows; the remaining rows of the
  result take the device's own column half; the barrier wait brings the peer's landing rows; the copy carries the send
  buffer there; the wait on the send cell returns the send buffer, the wait on the receive cell returns the device's
  landing rows holding the peer's send buffer; the two halves are joined again: the result buffer whole, at `outAt`.
-/
import proofs.«900492_g7700000000000493_dist_a2a_v7x_xyz2x2x4_y_m512_n512_bf16_1_alg».proof.Proof.ProtoKernelIdeal

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names the launch allocated them at: its own three, and its
    peer's barrier cell (its signal) and receive cell (its copy). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The exchange's ghost state device `c` starts from: the invariants; its positions at round 0 of its three cells; round 0
    reached on the cells it pays and on its own send and receive cells; the three tokens it pays with. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

def start (c : Dev nD) : sProp 𝕄 :=
  iprop((∃ K, ghost m K c) ∗ cred (tallyAt (barCell c) () 1) ∗ cred (tallyAt (recvCell c) () N) ∗ levAts L lv)

def Φ₀ (c : Dev nD) : sProp 𝕄 := iprop(start m c ∗ ∃ f, bufPts c f)
/-- After the point: the send buffer back, the two OWN cells at zero, closed. -/
def Φ₁ (c : Dev nD) : sProp 𝕄 := iprop(bufPts c (sendVal m c) ∗ semVal (sendCell c) 0 ∗ semVal (recvCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The result buffer, cut along the two row halves and joined again -/

/-- The whole result buffer of `c` is the rows its peer's copy lands in and the rows it stores itself, -/
theorem out_split (c : Dev nD) (f : (cc0_stg1_0 : Ref sig .tc).ty.Contents (Elt F)) :
    (((c : Thread nD τ).loc cc0_stg1_0) ↦{fullShare} f : sProp 𝕄) ⊢ iprop(rowsPts (peer c) c f ∗ ownPts c f) := by
  unfold rowsPts ownPts
  have h := (pointsTo_union (Val := Elt F) (Ix := Unit) (Name := ℕ) (U := UU) (Lvl := ℕ) (ℓ := (c : Thread nD τ).loc cc0_stg1_0)
    (q := fullShare) (f := f) (regs_disjoint c)).1
  rw [regs_cover] at h
  exact h

/-- and the two, at the landed values and the stored values, are the whole at `outAt`. -/
theorem out_join (c : Dev nD) :
    iprop(rowsPts (peer c) c (landV m (peer c)) ∗ ownPts c (localV m c)) ⊢ (((c : Thread nD τ).loc cc0_stg1_0) ↦{fullShare} outAt m c : sProp 𝕄) := by
  unfold rowsPts ownPts
  have h := pointsTo_join (Val := Elt F) (Ix := Unit) (Name := ℕ) (U := UU) (Lvl := ℕ) (ℓ := (c : Thread nD τ).loc cc0_stg1_0)
    (q := fullShare) (f := landV m (peer c)) (g := localV m c) (regs_disjoint c)
  rw [regs_cover] at h
  exact h

/-- What a store of the kept half over any contents leaves on the device's own rows. -/
theorem own_stored (c : Dev nD) (g : (cc0_stg1_0 : Ref sig .tc).ty.Contents (Elt F)) :
    ((((oM : Memref sig .tc .vmem S1024x512 .bf16).access (rOwn c) : View sig .tc _ _ _).loc (c : Thread nD τ)) ↦[RegOwn c]{fullShare}
        (((oM : Memref sig .tc .vmem S1024x512 .bf16).access (rOwn c) : View sig .tc _ _ _).write (Elt F) g
          (k0_pay2 ((xM : Memref sig .tc .vmem S512x1024 .f32).view.readAt (Elt F) (rKept c).toLoadRect (xstg m c))) Finset.univ) : sProp 𝕄)
      = ownPts c (localV m c) := by
  unfold ownPts localV keepVal
  exact pointsTo_congr fun i hi => View.write_congr (fun _ _ _ => rfl) (fun h => absurd hi h)

/-- The input staging buffer held whole, spelt through its memref's view. -/
theorem x_view (c : Dev nD) (f : (cc0_stg0_0 : Ref sig .tc).ty.Contents (Elt F)) :
    (((c : Thread nD τ).loc cc0_stg0_0) ↦{fullShare} f : sProp 𝕄)
      = ((xM : Memref sig .tc .vmem S512x1024 .f32).view.loc (c : Thread nD τ) ↦[(xM : Memref sig .tc .vmem S512x1024 .f32).view.set]{fullShare} f) := by
  rw [View.set_whole]

/-! ## The body -/

section Body

variable (K : Dev nD × Fin 3 → ℕ)

theorem hz : (![0, 0] : Fin 2 → Nat) = fun _ => 0 := funext fun a => by fin_cases a <;> rfl
/-- The send buffer stored whole holds what was stored. -/
theorem write_buf (f w : (cc0_scratch0 : Ref sig .tc).ty.Contents (Elt F)) :
    ((bM : Memref sig .tc .vmem S512x512 .bf16).access rAll : View sig .tc _ _ _).write (Elt F) f w Finset.univ = w :=
  Memref.write_access_unit_zero_univ (Elt F) cc0_scratch0 hz _ f w

/-- The copy of `c`'s send buffer into the landing rows on `n = peer c` (substituted, not rewritten): it pays `c`'s send
    cell with the send buffer and the peer's receive cell with the rows at the sent values. -/
theorem wp_send_peer (c n : Dev nD) (hn : n = peer c)
    {hsc : (dM c : Memref sig (Dev.tc n : Thread nD τ).2.kind .vmem S512x512 .bf16).view.ref.isScScratch = false}
    {hsrc : (bM : Memref sig .tc .vmem S512x512 .bf16).view.WordExact} {hdst : (dM c).view.WordExact}
    {hsem : DmaTarget.Typed .vmem (.dma recvS.sem) (.remote (Dev.tc n : Thread nD τ) (dM c) (.dma sendS.sem) hsc)}
    {α : Type} {Q : α → sProp 𝕄} {k : PUnit → Prog (TpuEff nD τ sig (Elt F) Λ₀ .tc) α}
    (fd : (cc0_stg1_0 : Ref sig .tc).ty.Contents (Elt F)) (W : Waits sig Unit) :
    iprop(cellInv ER (sched m) (K (c, 1)) (sendCell c) ∗ cellInv ER (sched m) (K (peer c, 2)) (recvCell (peer c))
        ∗ bufPts c (sendVal m c) ∗ rowsPts c (peer c) fd
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) (dM c) (.dma sendS.sem) hsc) (.dma recvS.sem) hsrc hdst hsem) k) Q) := by
  subst hn
  unfold bufPts rowsPts
  exact Rounds.wp_send_pointsTo 𝒱₀ ER (sched m) (c : Thread nD τ) none (κ₁ := K (c, 1)) (κ₂ := K (peer c, 2))
    (c' := (peer c : Thread nD τ)) (src := (bM : Memref sig .tc .vmem S512x512 .bf16)) (dst := dM c) (q := fullShare) (fs := sendVal m c)
    (r₁ := 0) (r₂ := 0) (d₁ := ()) (d₂ := ()) (fd := fd)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by rw [payload_recv]; unfold recvPay; rw [peer_peer]; exact Entails.of_eq (landed_eq m c (peer c) fd))

/-- The send buffer after the one store through its whole rectangle holds the sent half. -/
theorem buf_sent (c : Dev nD) (f : (cc0_scratch0 : Ref sig .tc).ty.Contents (Elt F)) :
    ((bM : Memref sig .tc .vmem S512x512 .bf16).view.loc (c : Thread nD τ) ↦[(bM : Memref sig .tc .vmem S512x512 .bf16).view.set]{fullShare}
        (bM : Memref sig .tc .vmem S512x512 .bf16).view.writes (Elt F) f
          [⟨rAll, k0_pay1 ((xM : Memref sig .tc .vmem S512x1024 .f32).view.readAt (Elt F) (rSent c).toLoadRect (xstg m c))⟩] : sProp 𝕄)
      = bufPts c (sendVal m c) := by
  unfold bufPts sendVal
  rw [View.writes_singleton]
  exact congrArg _ (write_buf f _)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv ∗ ∃ f, bufPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 1600000 in
/-- One device's body, stepped from `bodyPre` in program order to `bodyPost`. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs
  iintro ⟨⟨⟨⟨⟨#HIbar, #HIsnd, #HIrcv, #HIbarP, #HIrcvP⟩, HatB, HatS, HatV, #HrBP, #HrVP, #HrS, #HrV, HtBP, HtVP, HtS⟩, HcB, HcV, #Hlev, ⟨%f0, Hbuf⟩⟩,
    Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  simp only [sig_dev c]
  -- the result buffer cut in two: the rows the peer's copy lands in, the rows stored here
  ihave Hcut := (out_split c g1) $$ Hout
  icases Hcut with ⟨Hgive, Hown⟩
  -- the SIGNAL to the peer's barrier cell: with it go the landing rows and that round 0 of the receive cell is reached
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (O₁ c) rfl)
    $$ [HO HtBP Hgive]
  · isplitr; · iexact HIbarP
    isplitl [HO]; · iexact HO
    isplitl [HtBP]; · iexact HtBP
    isplitl [Hgive]
    · rw [payload_bar]; unfold barPay; rw [peer_peer]
      isplitl [Hgive]; · iexists g1; iexact Hgive
      iexact HrV
    · iexact HrBP
  iintro HO
  -- the SEND BUFFER takes the other column half of the device's rows; the kept half is read: the accesses to buffers held whole
  unfold bufPts ownPts
  ihave Hx := (Entails.of_eq (x_view c (xstg m c))) $$ Hx
  sl_exec
  ihave Hbuf := (Entails.of_eq (buf_sent m c f0)) $$ Hbuf
  -- the device's OWN ROWS of the result take its own column half: the result buffer is held on those rows only
  iapply (wp_load_rect 𝒱₀ (c : Thread nD τ) none Set.univ (m := oM) (r := rOwn c) (Finset.Subset.refl (RegOwn c))) $$ Hown; iintro Hown
  iapply (wp_store 𝒱₀ (c : Thread nD τ) none Set.univ (m := oM) (r := rOwn c) (Mk := Finset.univ) (Finset.Subset.refl (RegOwn c))) $$ Hown; iintro Hown
  ihave Hown := (Entails.of_eq (own_stored m c g1)) $$ Hown
  -- the WAIT on its own barrier cell, still owing the peer's receive credit: the peer's landing rows come with it
  iapply (Rounds.wp_wait_rest_token 𝒱₀ ER (sched m) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, Hland⟩, #HrVP'⟩
  -- the COPY of the send buffer into those rows
  unfold O₁
  iapply (wp_send_peer m K c _ (copy_dev c) fn (insert (SemLoc.reg barS, ()) W)) $$ [Hbuf Hland HO HtS HtVP]
  · isplitr; · iexact HIsnd
    isplitr; · iexact HIrcvP
    isplitl [Hbuf]; · iexact Hbuf
    isplitl [Hland]; · iexact Hland
    isplitl [HO]; · iexact HO
    isplitl [HtS]; · iexact HtS
    isplitr; · iexact HrS
    isplitl [HtVP]; · iexact HtVP
    iexact HrVP
  iintro ⟨HcS, HO⟩
  -- the wait on its SEND cell: the send buffer back
  iapply (Rounds.wp_wait_rest_token 𝒱₀ ER (sched m) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      ((Nat.zero_add _).trans (expect_send m c).symm)) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave Hbuf := (Entails.of_eq (rest_send m c)) $$ Hpay
  -- the wait on its RECEIVE cell: its landing rows, holding the peer's send buffer
  ihave HcV := (Entails.of_eq (show (cred (tallyAt (recvCell c) () N) : sProp 𝕄) = cred (tallyAt (recvCell c) () (dM c).view.dmaCredit) from rfl)) $$ HcV
  iapply (Rounds.wp_wait_rest_token 𝒱₀ ER (sched m) (c : Thread nD τ) none (κ := K (c, 2)) (k' := (dM c).view.dmaCredit)
      (wpE_waitDma2_eq 𝒱₀ (c : Thread nD τ) none Set.univ (dst := dM c)) (Set.mem_univ _) () (O := 0)
      (W := insert (SemLoc.dma sendS.sem, ()) (insert (SemLoc.reg barS, ()) W)) (R := 0) (m := 0) (T := ∅)
      ((Nat.zero_add _).trans ((show (dM c).view.dmaCredit = N from rfl).trans (expect_recv m c).symm))) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave Hrows := (Entails.of_eq (rest_recv m c)) $$ Hpay
  unfold recvPay sendPay
  -- the two own cells close: their counters at zero are the core's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  rw [wp_ret]; imodintro
  iapply Hk
  unfold bodyPost Φ₁ Dat.owesAt Pipeline.owesWithin
  rw [show (dats m 0 c).owed t₀.succ = 0 from rfl]
  isplitl [Hbuf HzS HzV]
  · isplitl [Hbuf]; · iexact Hbuf
    isplitl [HzS]; · iexact HzS
    iexact HzV
  isplitl [HO]
  · iexists (insert (SemLoc.dma recvS.sem, ()) (insert (SemLoc.dma sendS.sem, ()) (insert (SemLoc.reg barS, ()) W)))
    isplitr; · ipureintro; exact fun _ _ => Or.inl trivial
    iexact HO
  isplitl [Hx]
  · iexists _; isplitr; · (ipureintro; rfl)
    iapply (Entails.of_eq (x_view c (xstg m c)).symm); iexact Hx
  iexists _; isplitr; · (ipureintro; rfl)
  -- the two row halves joined: the result buffer whole
  iapply (out_join m c)
  isplitl [Hrows]; · iexact Hrows
  iexact Hown

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

end Body

set_option maxRecDepth 4000 in
set_option maxHeartbeats 1600000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m c)
  unfold bodyPre' Φ₀ start
  iintro ⟨⟨⟨⟨%K, Hg⟩, Hrest⟩, Hbuf⟩, Ho, Hx, Hout⟩
  iapply (sound_body m K c fun _ => bodyPost m c)
  unfold bodyPre
  isplitr []
  · isplitl [Hg Hrest Hbuf]
    · isplitl [Hg]; · iexact Hg
      icases Hrest with ⟨H1, H2, H3⟩
      isplitl [H1]; · iexact H1
      isplitl [H2]; · iexact H2
      isplitl [H3]; · iexact H3
      iexact Hbuf
    isplitl [Ho]; · iexact Ho
    isplitl [Hx] <;> iassumption
  · iintro H; iexact H

/-- info: 'Cert.KernelIdeal.Xchg.body_obligation' depends on axioms: [propext, Classical.choice, Quot.sound] -/
#guard_msgs in #print axioms body_obligation

end Cert.KernelIdeal.Xchg

end
-- ==== Proof.RunKernelIdeal.lean ====
/-
  The exchange of column halves across the mesh axis `y`, part 3: all sixteen devices at once.

  Each device's three cells are allocated under one update for the whole mesh, because a barrier cell and a receive
  cell are paid by the OTHER device of the pair: the tokens a device pays with are its peer's cells' tokens, dealt
  across the pairing. What each device owes at launch (one unit to its peer's barrier cell, a block's credit to its
  peer's receive cell) is, summed over the payers, what each cell is credited: one unit, one block. Levels: a device
  waits on its barrier cell (level 1) while it owes only a receive cell (level 2), and on the staging cells (level 0)
  while it owes both: no cycle. The run ends with every windowed array at what the proof data compute for it.
-/
import proofs.«900492_g7700000000000493_dist_a2a_v7x_xyz2x2x4_y_m512_n512_bf16_1_alg».proof.Proof.BodyKernelIdeal

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state dealt at launch -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def xCells : Finset (GSem nD τ sig) := Finset.univ.map ⟨kcell, kcell_injective⟩

/-- Each cell's one duty token, as minted. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`; -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)
/-- what the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_x : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 3 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin3]; rfl
  iintro HX
  imod (Rounds.fund ER (sched m) xCells xToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ G' m c := by
  unfold records linear payToks G' ghost invs
  iintro ⟨⟨#HI, #HR⟩, ⟨HaB, HaS, HaV⟩, HtBP, HtVP, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

/-- The tokens dealt across the pairing: a barrier cell's and a receive cell's token go to the peer, who pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} : Iff (recvCell a = recvCell b) (a = b) :=
  ⟨fun h => Fin.ext (congrArg (fun g : GSem nD τ sig => g.1.1.val) h), fun h => h ▸ rfl⟩

/-- What device `d` owes device `c`'s barrier cell: a unit if it is `c`'s peer; -/
theorem owed_bar (d c : Dev nD) : O₀ d (barCell c) () = if d = peer c then 1 else 0 := by
  unfold O₀ O₁
  rw [Pi.add_apply, Finsupp.add_apply, tallyAt_ne_cell (fun h => recv_ne_bar (congrArg Prod.snd h).symm),
    tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]
/-- its receive cell: a block's credit if it is `c`'s peer. -/
theorem owed_recv (d c : Dev nD) : O₀ d (recvCell c) () = if d = peer c then N else 0 := by
  unfold O₀ O₁
  rw [Pi.add_apply, Finsupp.add_apply, tallyAt_apply,
    tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c,
    Finset.sum_ite_eq' Finset.univ (peer c) fun _ => N, if_pos (Finset.mem_univ _)]

theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; rw [bufPts_eq]; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, HzS, HzV⟩
  isplitr; · iempintro
  isplitl [HzS HzV]
  · isplitl [HzS] <;> iassumption
  iexists (sendVal m c); rw [← bufPts_eq]; iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- Each windowed array after the run, as the proof data compute it. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of sixteen devices, for any float values, from any memory with zero counters: every weakly
    fair execution of @main terminates, faulting nowhere, and every final state has each device's argument and result
    arrays at the contents the proof data compute. -/
theorem run_main : θ_run defs (onTc (τ := τ) (main (F := F))) (st0 m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_x m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Xchg.run_main' depends on axioms: [propext, Classical.choice, Quot.sound] -/
#guard_msgs in #print axioms run_main

/-- The argument array after the run holds what it held; -/
theorem finalA_x (c : Dev nD) : finalA m c (0 : Fin 2) = m (win0_0.arr.view.loc (c : Thread nD τ)) :=
  (dats (F := F) m 0 c).arrAt_in (0 : Fin 2) rfl _

end Cert.KernelIdeal.Xchg

end
-- ==== Proof.Value.lean ====
/-
  The exchange of column halves across the mesh axis `y`, part 4: what the result arrays hold.

  Over the extended reals the narrowing to the result's format changes no value, so device `c`'s result is a
  rearrangement of entries of the whole array `X` (of which device `d` holds rows `[512 y_d, 512 y_d + 512)`):
  on its own rows `[512 y, 512 y + 512)` the entry at `(i0, i1)` is its block's `(i0 - 512 y, 512 y + i1)`, that is
  `X (i0, 512 y + i1)`; on the other rows it is its peer's block's `(i0 - 512 (1 - y), 512 y + i1)`, again
  `X (i0, 512 y + i1)`. So the result is columns `[512 y, 512 y + 512)` of `X`: the reference's result, cut along `y`.
-/
import proofs.«900492_g7700000000000493_dist_a2a_v7x_xyz2x2x4_y_m512_n512_bf16_1_alg».proof.Defs
import proofs.«900492_g7700000000000493_dist_a2a_v7x_xyz2x2x4_y_m512_n512_bf16_1_alg».proof.Proof.RunKernelIdeal
import proofs.«900492_g7700000000000493_dist_a2a_v7x_xyz2x2x4_y_m512_n512_bf16_1_alg».proof.Proof.Gen.KernelIdeal.Points
import proofs.«900492_g7700000000000493_dist_a2a_v7x_xyz2x2x4_y_m512_n512_bf16_1_alg».proof.Proof.Gen.ReferenceIdeal
import proofs.«900492_g7700000000000493_dist_a2a_v7x_xyz2x2x4_y_m512_n512_bf16_1_alg».proof.Proof.Gen.ReferenceIdeal.Run
import Idealize.ShloMosaic.Lib.ValueIdx
import Idealize.ShloMosaic.Lib.Pipeline.Value

noncomputable section

namespace Cert.KernelIdeal.Xchg

open Cert.KernelIdeal Cert.KernelIdeal.Gen

open Idealize.ShloMosaic
open Idealize.ShloMosaic.TcCoe
open Idealize.SL.Sem
open Idealize.ShloMosaic.Pipeline (Dat)
open Idealize.ShloMosaic.ValueIdx (ix2 eq_ix2)

section AnyFloat
variable {F : FTy → Type} [FloatOps F]
variable (m : (ℓ : Loc nD τ sig) → Buf (Elt F) ℓ)

set_option maxHeartbeats 4000000 in
/-- The result array after the run is what the body left in its staging buffer: the one write-back writes the whole array. -/
theorem final_out (c : Dev nD) : finalA m c (1 : Fin 2) = outAt m c := by
  have h1 : finalA m c (1 : Fin 2)
      = if (cfg0.win (1 : Fin 2)).flush t₀ then ((cfg0.win (1 : Fin 2)).blk t₀).view.write (Elt F) ((dats (F := F) m 0 c).arrAt (1 : Fin 2) t₀.val) ((dats (F := F) m 0 c).flushed (1 : Fin 2) t₀) Finset.univ
        else (dats (F := F) m 0 c).arrAt (1 : Fin 2) t₀.val :=
    (dats (F := F) m 0 c).arrAt_succ (1 : Fin 2) t₀
  rw [h1, if_pos (flush0_1 t₀)]
  exact Memref.write_access_unit_zero_univ (Elt F) main_v1 (funext fun a => by fin_cases a <;> rfl) _ _ _

set_option maxHeartbeats 4000000 in
/-- The input staging buffer holds the device's block of the array. -/
theorem xstg_eq (c : Dev nD) : xstg m c = m ((c : Thread nD τ).loc main_arg0) :=
  Memref.read_access_unit_zero (Elt F) main_arg0 (funext fun a => by fin_cases a <;> rfl) _ _

/-- On its own rows the result holds the kept half, row for row; -/
theorem localV_at (c : Dev nD) (p q : Fin 512) (h : 512 * (c.val / 4 % 2) + p.val < 1024) :
    localV m c (ix2 ⟨512 * (c.val / 4 % 2) + p.val, h⟩ q) = keepVal m c (ix2 p q) := by
  have he : ((oM : Memref sig .tc .vmem S1024x512 .bf16).access (rOwn c) : View sig .tc _ _ _).emb (ix2 p q)
      = ix2 ⟨512 * (c.val / 4 % 2) + p.val, h⟩ q := by
    funext a
    match a with
    | ⟨0, _⟩ => exact Fin.ext (by show k0_off3 c 0 + 1 * p.val = 512 * (c.val / 4 % 2) + p.val; rw [off3_0]; omega)
    | ⟨1, _⟩ => exact Fin.ext (by show k0_off3 c 1 + 1 * q.val = q.val; rw [off3_1]; omega)
  unfold localV
  rw [← he, View.write_emb_of_mem _ _ (Finset.mem_univ _)]
  rfl

/-- on the rows where sender `s`'s copy landed, the sent half, row for row. -/
theorem landV_at (s : Dev nD) (p q : Fin 512) (h : 512 * (s.val / 4 % 2) + p.val < 1024) :
    landV m s (ix2 ⟨512 * (s.val / 4 % 2) + p.val, h⟩ q) = sendVal m s (ix2 p q) := by
  have he : (dM s).view.emb (ix2 p q) = ix2 ⟨512 * (s.val / 4 % 2) + p.val, h⟩ q := by
    funext a
    match a with
    | ⟨0, _⟩ => exact Fin.ext (by show k0_off4 s 0 + 1 * p.val = 512 * (s.val / 4 % 2) + p.val; rw [off4_0]; omega)
    | ⟨1, _⟩ => exact Fin.ext (by show k0_off4 s 1 + 1 * q.val = q.val; rw [off4_1]; omega)
  unfold landV
  rw [← he, View.write_emb_of_mem _ _ (Finset.mem_univ _)]
  rfl

end AnyFloat

/-! ## Over the extended reals -/

section AtIdeal

open Idealize.ShloMosaic.Layout

variable (m : (ℓ : Loc nD τ sig) → Buf (Elt Ideal) ℓ)

theorem off1_0 (c : Dev nD) : k0_off1 c 0 = 0 := by rw [k0_off1_eq]; rfl
theorem off1_1 (c : Dev nD) : k0_off1 c 1 = 512 - 512 * (c.val / 4 % 2) := by rw [k0_off1_eq]; rfl
theorem off2_0 (c : Dev nD) : k0_off2 c 0 = 0 := by rw [k0_off2_eq]; rfl
theorem off2_1 (c : Dev nD) : k0_off2 c 1 = 512 * (c.val / 4 % 2) := by rw [k0_off2_eq]; rfl

/-- The kept half is the block's column half of the device's own `y`: narrowing changes no value; -/
theorem keepVal_at (c : Dev nD) (p q : Fin 512) (h : 512 * (c.val / 4 % 2) + q.val < 1024) :
    keepVal m c (ix2 p q) = m ((c : Thread nD τ).loc main_arg0) (ix2 p ⟨512 * (c.val / 4 % 2) + q.val, h⟩) := by
  have he : ((xM : Memref sig .tc .vmem S512x1024 .f32).access (rKept c) : View sig .tc _ _ _).emb (ix2 p q)
      = ix2 p ⟨512 * (c.val / 4 % 2) + q.val, h⟩ := by
    funext a
    match a with
    | ⟨0, _⟩ => exact Fin.ext (by show k0_off2 c 0 + 1 * p.val = p.val; rw [off2_0]; omega)
    | ⟨1, _⟩ => exact Fin.ext (by show k0_off2 c 1 + 1 * q.val = 512 * (c.val / 4 % 2) + q.val; rw [off2_1]; omega)
  have hk : keepVal m c (ix2 p q)
      = m ((c : Thread nD τ).loc main_arg0) (((xM : Memref sig .tc .vmem S512x1024 .f32).access (rKept c) : View sig .tc _ _ _).emb (ix2 p q)) := by
    simp only [keepVal, k0_pay2, ValueIdx.truncf_apply, shapeCast_self, xstg_eq] <;> rfl
  rw [hk, he]
/-- the sent half the column half of the other `y`. -/
theorem sendVal_at (c : Dev nD) (p q : Fin 512) (h : 512 - 512 * (c.val / 4 % 2) + q.val < 1024) :
    sendVal m c (ix2 p q) = m ((c : Thread nD τ).loc main_arg0) (ix2 p ⟨512 - 512 * (c.val / 4 % 2) + q.val, h⟩) := by
  have he : ((xM : Memref sig .tc .vmem S512x1024 .f32).access (rSent c) : View sig .tc _ _ _).emb (ix2 p q)
      = ix2 p ⟨512 - 512 * (c.val / 4 % 2) + q.val, h⟩ := by
    funext a
    match a with
    | ⟨0, _⟩ => exact Fin.ext (by show k0_off1 c 0 + 1 * p.val = p.val; rw [off1_0]; omega)
    | ⟨1, _⟩ => exact Fin.ext (by show k0_off1 c 1 + 1 * q.val = 512 - 512 * (c.val / 4 % 2) + q.val; rw [off1_1]; omega)
  have hk : sendVal m c (ix2 p q)
      = m ((c : Thread nD τ).loc main_arg0) (((xM : Memref sig .tc .vmem S512x1024 .f32).access (rSent c) : View sig .tc _ _ _).emb (ix2 p q)) := by
    simp only [sendVal, k0_pay1, ValueIdx.truncf_apply, shapeCast_self, xstg_eq] <;> rfl
  rw [hk, he]

/-- A device's block coordinates: the array's rows are cut along `y`, the result's columns are. -/
theorem rowBlk_0 (c : Dev nD) : ((meshBlock [2, 2, 4] ![[1], []] c) 0).val = c.val / 4 % 2 := by revert c; decide
theorem rowBlk_1 (c : Dev nD) : ((meshBlock [2, 2, 4] ![[1], []] c) 1).val = 0 := by revert c; decide
theorem colBlk_0 (c : Dev nD) : ((meshBlock [2, 2, 4] ![[], [1]] c) 0).val = 0 := by revert c; decide
theorem colBlk_1 (c : Dev nD) : ((meshBlock [2, 2, 4] ![[], [1]] c) 1).val = c.val / 4 % 2 := by revert c; decide

/-- Entry `(r, k)` of a device's block of the whole array `X` is `X (512 y + r, k)`; -/
theorem block_at (X : (⟨2, ![1024, 1024]⟩ : Shape).Idx → EReal) (c : Dev nD) (r : Fin 512) (k : Fin 1024) (h : 512 * (c.val / 4 % 2) + r.val < 1024) :
    (blockN ⟨2, ![512, 1024]⟩ ⟨2, ![1024, 1024]⟩ (meshBlock [2, 2, 4] ![[1], []] c) X) (ix2 r k) = X (ix2 ⟨512 * (c.val / 4 % 2) + r.val, h⟩ k) := by
  rw [blockN_apply]
  refine congrArg X (funext fun a => ?_)
  match a with
  | ⟨0, _⟩ => exact Fin.ext (by show ((meshBlock [2, 2, 4] ![[1], []] c) 0).val * 512 + r.val = 512 * (c.val / 4 % 2) + r.val; rw [rowBlk_0]; omega)
  | ⟨1, _⟩ => exact Fin.ext (by show ((meshBlock [2, 2, 4] ![[1], []] c) 1).val * 1024 + k.val = k.val; rw [rowBlk_1]; omega)
/-- entry `(i0, i1)` of its block of a whole result `Y` is `Y (i0, 512 y + i1)`. -/
theorem result_at (Y : (⟨2, ![1024, 1024]⟩ : Shape).Idx → EReal) (c : Dev nD) (i0 : Fin 1024) (i1 : Fin 512) (h : 512 * (c.val / 4 % 2) + i1.val < 1024) :
    (blockN ⟨2, ![1024, 512]⟩ ⟨2, ![1024, 1024]⟩ (meshBlock [2, 2, 4] ![[], [1]] c) Y) (ix2 i0 i1) = Y (ix2 i0 ⟨512 * (c.val / 4 % 2) + i1.val, h⟩) := by
  rw [blockN_apply]
  refine congrArg Y (funext fun a => ?_)
  match a with
  | ⟨0, _⟩ => exact Fin.ext (by show ((meshBlock [2, 2, 4] ![[], [1]] c) 0).val * 1024 + i0.val = i0.val; rw [colBlk_0]; omega)
  | ⟨1, _⟩ => exact Fin.ext (by show ((meshBlock [2, 2, 4] ![[], [1]] c) 1).val * 512 + i1.val = 512 * (c.val / 4 % 2) + i1.val; rw [colBlk_1]; omega)

/-- Where every device's rows are its block of `X`, device `c`'s result is its column block of `X` narrowed: on its own rows
    through its own block, on the other rows through its peer's. -/
theorem outAt_eq (X : (⟨2, ![1024, 1024]⟩ : Shape).Idx → EReal) (hb : FTy.bits .bf16 < FTy.bits .f32)
    (hblk : ∀ d : Dev nD, (m ((d : Thread nD τ).loc main_arg0) : (⟨2, ![512, 1024]⟩ : Shape).Idx → EReal)
      = blockN ⟨2, ![512, 1024]⟩ ⟨2, ![1024, 1024]⟩ (meshBlock [2, 2, 4] ![[1], []] d) X) (c : Dev nD) :
    (outAt m c : (⟨2, ![1024, 512]⟩ : Shape).Idx → EReal)
      = blockN ⟨2, ![1024, 512]⟩ ⟨2, ![1024, 1024]⟩ (meshBlock [2, 2, 4] ![[], [1]] c) (truncf (F := Ideal) (φ := .f32) .bf16 X hb) := by
  have ht : (truncf (F := Ideal) (φ := .f32) .bf16 X hb : (⟨2, ![1024, 1024]⟩ : Shape).Idx → EReal) = X :=
    funext fun i => ValueIdx.truncf_apply X hb i
  rw [ht]
  funext i
  obtain ⟨i0, i1, rfl⟩ : ∃ (a : Fin 1024) (b : Fin 512), i = ix2 a b := ⟨i 0, i 1, eq_ix2 i⟩
  have hy := y_lt c
  have h1 : i1.val < 512 := i1.isLt
  have h0 : i0.val < 1024 := i0.isLt
  rw [result_at X c i0 i1 (by omega)]
  unfold outAt
  by_cases hrow : 512 * (c.val / 4 % 2) ≤ i0.val ∧ i0.val < 512 * (c.val / 4 % 2) + 512
  · -- an own row: the kept half of the device's own block
    rw [Finset.piecewise_eq_of_mem _ _ _ ((mem_RegOwn c _).mpr hrow)]
    obtain ⟨p, hp⟩ : ∃ p : Fin 512, i0.val = 512 * (c.val / 4 % 2) + p.val :=
      ⟨⟨i0.val - 512 * (c.val / 4 % 2), by omega⟩, by show i0.val = 512 * (c.val / 4 % 2) + (i0.val - 512 * (c.val / 4 % 2)); omega⟩
    have hlt : 512 * (c.val / 4 % 2) + p.val < 1024 := by have := p.isLt; omega
    obtain rfl : i0 = ⟨512 * (c.val / 4 % 2) + p.val, hlt⟩ := Fin.ext hp
    rw [localV_at m c p i1 hlt, keepVal_at m c p i1 (by omega), hblk c, block_at X c p _ hlt]
  · -- a row of the other half: the sent half of the peer's block
    have hnot : ix2 i0 i1 ∉ RegOwn c := fun hh => hrow ((mem_RegOwn c _).mp hh)
    rw [Finset.piecewise_eq_of_notMem _ _ _ hnot]
    have hpy := y_peer c
    obtain ⟨p, hp⟩ : ∃ p : Fin 512, i0.val = 512 * ((peer c).val / 4 % 2) + p.val :=
      ⟨⟨i0.val - 512 * ((peer c).val / 4 % 2), by omega⟩, by show i0.val = 512 * ((peer c).val / 4 % 2) + (i0.val - 512 * ((peer c).val / 4 % 2)); omega⟩
    have hlt : 512 * ((peer c).val / 4 % 2) + p.val < 1024 := by have := p.isLt; omega
    obtain rfl : i0 = ⟨512 * ((peer c).val / 4 % 2) + p.val, hlt⟩ := Fin.ext hp
    rw [landV_at m (peer c) p i1 hlt, sendVal_at m (peer c) p i1 (by omega), hblk (peer c), block_at X (peer c) p _ hlt]
    refine congrArg X (funext fun a => ?_)
    match a with
    | ⟨0, _⟩ => rfl
    | ⟨1, _⟩ => exact Fin.ext (by show 512 - 512 * ((peer c).val / 4 % 2) + i1.val = 512 * (c.val / 4 % 2) + i1.val; omega)

end AtIdeal

end Cert.KernelIdeal.Xchg

end
-- ==== Proof.lean ====
/-
  A sixteen-device exchange of column halves along the mesh axis `y` against the identity.

  The whole 1024 x 1024 array `X` is cut by ROWS along `y` on the way in (device `c` at `(x, y, z)` holds rows
  `[512 y, 512 y + 512)`) and the result by COLUMNS on the way out (it must end holding columns `[512 y, 512 y + 512)`).
  Devices pair off along `y`. Each keeps the columns of its own half, which are rows `[512 y, 512 y + 512)` of its
  result, and copies the other column half into its peer's result, where they are the rows the peer does not write.
  The reference is the identity narrowed to the result's format; over the extended reals narrowing changes no value.

  Termination and safety: a device signals its peer's barrier semaphore before anything else and waits for its own
  before it copies, so a copy lands only in a result buffer whose owner has entered the kernel and has handed over,
  with that signal, exactly the rows the copy writes; the owner stores only the other rows meanwhile. Every wait is
  on a cell below what the waiter still owes (barrier below receive), so no cycle of waits exists.
  Values: joined, the two row halves of a device's result are its block of `X` cut by columns, entry by entry.
  The frames are the run with the values dropped; nothing was rewritten by the ideal pass, so `preserves` is trivial.
-/
import proofs.«900492_g7700000000000493_dist_a2a_v7x_xyz2x2x4_y_m512_n512_bf16_1_alg».proof.Defs
import proofs.«900492_g7700000000000493_dist_a2a_v7x_xyz2x2x4_y_m512_n512_bf16_1_alg».proof.Proof.Gen.Kernel
import proofs.«900492_g7700000000000493_dist_a2a_v7x_xyz2x2x4_y_m512_n512_bf16_1_alg».proof.Proof.Gen.Kernel.Skeleton
import proofs.«900492_g7700000000000493_dist_a2a_v7x_xyz2x2x4_y_m512_n512_bf16_1_alg».proof.Proof.Gen.Kernel.Launch
import proofs.«900492_g7700000000000493_dist_a2a_v7x_xyz2x2x4_y_m512_n512_bf16_1_alg».proof.Proof.Gen.Kernel.Points
import proofs.«900492_g7700000000000493_dist_a2a_v7x_xyz2x2x4_y_m512_n512_bf16_1_alg».proof.Proof.Gen.Kernel.Frame
import proofs.«900492_g7700000000000493_dist_a2a_v7x_xyz2x2x4_y_m512_n512_bf16_1_alg».proof.Proof.Gen.KernelIdeal
import proofs.«900492_g7700000000000493_dist_a2a_v7x_xyz2x2x4_y_m512_n512_bf16_1_alg».proof.Proof.Gen.KernelIdeal.Skeleton
import proofs.«900492_g7700000000000493_dist_a2a_v7x_xyz2x2x4_y_m512_n512_bf16_1_alg».proof.Proof.Gen.KernelIdeal.Launch
import proofs.«900492_g7700000000000493_dist_a2a_v7x_xyz2x2x4_y_m512_n512_bf16_1_alg».proof.Proof.Gen.KernelIdeal.Points
import proofs.«900492_g7700000000000493_dist_a2a_v7x_xyz2x2x4_y_m512_n512_bf16_1_alg».proof.Proof.Gen.KernelIdeal.Frame
import proofs.«900492_g7700000000000493_dist_a2a_v7x_xyz2x2x4_y_m512_n512_bf16_1_alg».proof.Proof.Gen.ReferenceIdeal
import proofs.«900492_g7700000000000493_dist_a2a_v7x_xyz2x2x4_y_m512_n512_bf16_1_alg».proof.Proof.Gen.ReferenceIdeal.Run
import proofs.«900492_g7700000000000493_dist_a2a_v7x_xyz2x2x4_y_m512_n512_bf16_1_alg».proof.Proof.Gen.Pre_finite_inputs_Kernel
import proofs.«900492_g7700000000000493_dist_a2a_v7x_xyz2x2x4_y_m512_n512_bf16_1_alg».proof.Proof.Gen.Pre_finite_inputs_ReferenceIdeal
import proofs.«900492_g7700000000000493_dist_a2a_v7x_xyz2x2x4_y_m512_n512_bf16_1_alg».proof.Proof.RunKernel
import proofs.«900492_g7700000000000493_dist_a2a_v7x_xyz2x2x4_y_m512_n512_bf16_1_alg».proof.Proof.RunKernelIdeal
import proofs.«900492_g7700000000000493_dist_a2a_v7x_xyz2x2x4_y_m512_n512_bf16_1_alg».proof.Proof.Value
import Idealize.ShloMosaic.Adequacy
import Idealize.ShloMosaic.Init

noncomputable section

namespace Cert.Proof

open Idealize.ShloMosaic Idealize.ShloMosaic.TcCoe Idealize.SL.Sem

/-- The word-level program runs and leaves its argument arrays as they were: the run, its values dropped. -/
theorem frame_k : Cert.frame_Kernel := fun m ρ _ =>
  (θ_run (Cert.Kernel.defs (F := Bits)) _ _).mono
    (fun _ h c => (h c (0 : Fin 2)).trans (Cert.Kernel.Xchg.finalA_x m c)) (Cert.Kernel.Xchg.run_main m ρ)

/-- The same of the program read over the extended reals. -/
theorem frame_ki : Cert.frame_KernelIdeal := fun m ρ _ =>
  (θ_run (Cert.KernelIdeal.defs (F := Ideal)) _ _).mono
    (fun _ h c => (h c (0 : Fin 2)).trans (Cert.KernelIdeal.Xchg.finalA_x m c)) (Cert.KernelIdeal.Xchg.run_main m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs run; each device's result ends as its column block of the reference's result, the narrowed whole array. -/
theorem algebraic : Cert.algebraic_KernelIdeal_ReferenceIdeal := by
  intro m ρ m' ρ' _ hagree
  refine ⟨_, ?_, (θ_run Cert.ReferenceIdeal.defs _ _).mono (fun _ h => ⟨(h 0).1, (h 0).2⟩)
    (Cert.ReferenceIdeal.Value.run (F := Ideal) m' ρ')⟩
  refine (θ_run (Cert.KernelIdeal.defs (F := Ideal)) _ _).mono (fun _ h c => ⟨?_, (h c (0 : Fin 2)).trans (Cert.KernelIdeal.Xchg.finalA_x m c)⟩)
    (Cert.KernelIdeal.Xchg.run_main m ρ)
  exact (h c (1 : Fin 2)).trans ((Cert.KernelIdeal.Xchg.final_out m c).trans
    (Cert.KernelIdeal.Xchg.outAt_eq m _ _ hagree c))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, trivial, algebraic⟩

end Cert.Proof

end
